-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S50000x128 .f32) (main_arg1 : IVec S2x640000 32) (main_arg2 : FVec F S128x256 .f32) (main_arg3 : FVec F S256 .f32) (main_arg4 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Kernel.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩

abbrev nBuf : Space → Nat
  | .hbm => 36
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S50000x128, .f32⟩
  | .hbm, ⟨20, _⟩ => ⟨S640000x1, .i32⟩
  | .hbm, ⟨21, _⟩ => ⟨S50000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S50000, .f32⟩
  | .hbm, ⟨26, _⟩ => ⟨S640000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x256, .f32⟩
  | .hbm, ⟨35, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S50000x128, .f32⟩
  | .hbm, ⟨20, _⟩ => ⟨S640000x1, .i32⟩
  | .hbm, ⟨21, _⟩ => ⟨S50000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S50000, .f32⟩
  | .hbm, ⟨26, _⟩ => ⟨S640000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x256, .f32⟩
  | .hbm, ⟨35, _⟩ => ⟨S1x256, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x256_S50000x256_1_0_0_1_n_n_wf : DotDims.WF S50000x128 S128x256 S50000x256 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.TileValue.lean ====
/-
  What the kernel body computes on one tile of 2000 nodes, at the ideal values.

  The body loads a 2000 × 128 tile of aggregated features `a`, the same tile of the nodes' own features `x`, both
  128 × 256 weight matrices whole and the bias as a 1 × 256 row. It narrows all four matrices to bf16 (the identity on
  extended reals), multiplies `a · Wl` and `x · Wr` into zero accumulators, adds the two products and then the bias row
  broadcast down the tile's 2000 rows. So at row `p`, column `q` of the tile it holds

      (∑ₖ a(p,k) · Wl(k,q)  +  ∑ₖ x(p,k) · Wr(k,q))  +  b(0,q).
-/
import proofs.«174764_j63367947485322_1_alg».proof.Proof.Gen.KernelIdeal.Skeleton
import proofs.«174764_j63367947485322_1_alg».proof.Proof.LibPlainDot
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- The body's matrix product has the plain dimension numbers: rows by channels times channels by columns. -/
theorem dot_plain : (dot_S2000x128_S128x256_S2000x256_1_0_0_1_n_n : DotDims S2000x128 S128x256 S2000x256)
    = DotDims.plain 2000 128 256 := rfl

/-- A product of the body into the zero accumulator, at row `p` and column `q`: the sum over the 128 channels. -/
theorem prod_apply (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  rw [dot_plain]
  exact PlainDot.matmul_zero_apply 2000 128 256 none l r (ix2 p q)

/-- The bias row broadcast down the tile reads the row's entry of the same column. -/
theorem bias_apply (b : FVec Ideal S1x256 .f32) (p : Fin 2000) (q : Fin 256) :
    broadcastTo S2000x256 b broadcasts_S1x256_S2000x256 (ix2 p q) = b (ix2 (0 : Fin 1) q) :=
  broadcastTo_apply b broadcasts_S1x256_S2000x256 (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The body's stored value at row `p`, column `q` of the tile. -/
theorem pay_apply (a x : Vec Ideal S2000x128 .f32) (wl wr : Vec Ideal S128x256 .f32) (b : Vec Ideal S1x256 .f32)
    (p : Fin 2000) (q : Fin 256) :
    k0_pay1 (F := Ideal) a x wl wr b (ix2 p q)
      = (∑ k : Fin 128, a (ix2 p k) * wl (ix2 k q) + ∑ k : Fin 128, x (ix2 p k) * wr (ix2 k q)) + b (ix2 (0 : Fin 1) q) := by
  unfold k0_pay1
  simp only [addf_apply, prod_apply, truncf_apply, shapeCast_self, bias_apply]

end Cert.KernelIdeal.Tile

end
-- ==== Proof.Layer.lean ====
/-
  One graph-convolution layer as a function of its five arrays, index by index, on the extended reals.

  Given a matrix `a` of aggregated neighbour features (one row of 128 channels per node, however it was aggregated), the
  nodes' own features `x`, two 128 × 256 weight matrices and a bias row, the layer's output at node `r` and output
  channel `c` is

      (∑ₖ a(r,k) · Wl(k,c)  +  ∑ₖ x(r,k) · Wr(k,c))  +  b(c),

  the two matrix products summed over the 128 input channels. One program adds the bias after both products, the other
  between them; addition of extended reals is commutative and associative (also at the infinities), so both orders are
  this one function: `layer_bias_between`. No finiteness is needed.
-/
import Idealize.ShloMosaic.PureOps.Ideal.Laws
import Idealize.ShloMosaic.Lib.ValueIdx

noncomputable section

namespace Cert.Sage

open Idealize.ShloMosaic Idealize.ShloMosaic.ValueIdx

/-- Per-node input features: 50000 nodes, 128 channels. -/
abbrev Feat : Shape := ⟨2, ![50000, 128]⟩
/-- A weight matrix: 128 input channels by 256 output channels. -/
abbrev Wt : Shape := ⟨2, ![128, 256]⟩
/-- The bias: one entry per output channel. -/
abbrev Bias : Shape := ⟨1, ![256]⟩
/-- The layer's output: 50000 nodes, 256 channels. -/
abbrev Res : Shape := ⟨2, ![50000, 256]⟩

/-- The layer: aggregated features times `wl`, plus own features times `wr`, plus the bias. -/
def layer (a x : Feat.Idx → EReal) (wl wr : Wt.Idx → EReal) (b : Bias.Idx → EReal) : Res.Idx → EReal :=
  fun i => (∑ k : Fin 128, a (ix2 (i 0) k) * wl (ix2 k (i 1)) + ∑ k : Fin 128, x (ix2 (i 0) k) * wr (ix2 k (i 1)))
    + b (ix1 (i 1))

/-- Adding the bias between the two products instead of after them gives the same entry. -/
theorem layer_bias_between (a x : Feat.Idx → EReal) (wl wr : Wt.Idx → EReal) (b : Bias.Idx → EReal) (i : Res.Idx) :
    (∑ k : Fin 128, a (ix2 (i 0) k) * wl (ix2 k (i 1)) + b (ix1 (i 1))) + ∑ k : Fin 128, x (ix2 (i 0) k) * wr (ix2 k (i 1))
      = layer a x wl wr b i :=
  add_right_comm _ _ _

end Cert.Sage

end
-- ==== Proof.KernelArray.lean ====
/-
  The kernel's output array after its run, as one function of the arrays its region finds.

  The region runs the body at 25 grid points. Point `t` is handed rows `2000·t … 2000·t + 1999` of the aggregated
  features (made by the host operations before the region) and of the node features, both weight matrices whole, and the
  bias as a 1 × 256 row; it writes rows `2000·t … 2000·t + 1999` of the output. By the tile computation the value it
  writes at row `p` of its tile is the layer's value at row `2000·t + p` of the whole arrays, so each point writes back
  its tile of `layer …`, and the 25 tiles of 2000 rows cover all 50000 rows: the output array ends as the layer.
-/
import proofs.«174764_j63367947485322_1_alg».proof.Proof.Gen.KernelIdeal.Value
import proofs.«174764_j63367947485322_1_alg».proof.Proof.TileValue
import proofs.«174764_j63367947485322_1_alg».proof.Proof.Layer
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Value

/-! ## One tile against the layer -/

/-- If a tile's loads are the rows `r` of the big arrays where the tile's row is `p`, the weights whole and the bias
    row the bias, the body's value at `(p, q)` is the layer's at `(r, q)`. -/
theorem tile_layer (a x : Vec Ideal S2000x128 .f32) (wl wr : Vec Ideal S128x256 .f32) (b : Vec Ideal S1x256 .f32)
    (A X : Cert.Sage.Feat.Idx → EReal) (WL WR : Cert.Sage.Wt.Idx → EReal) (B : Cert.Sage.Bias.Idx → EReal)
    (p : Fin 2000) (q : Fin 256) (r : Fin 50000)
    (ha : ∀ k : Fin 128, a (ix2 p k) = A (ix2 r k)) (hx : ∀ k : Fin 128, x (ix2 p k) = X (ix2 r k))
    (hwl : ∀ k : Fin 128, wl (ix2 k q) = WL (ix2 k q)) (hwr : ∀ k : Fin 128, wr (ix2 k q) = WR (ix2 k q))
    (hb : b (ix2 (0 : Fin 1) q) = B (ix1 q)) :
    k0_pay1 (F := Ideal) a x wl wr b (ix2 p q) = Cert.Sage.layer A X WL WR B (ix2 r q) := by
  rw [Tile.pay_apply, hb]
  show _ = (∑ k : Fin 128, A (ix2 r k) * WL (ix2 k q) + ∑ k : Fin 128, X (ix2 r k) * WR (ix2 k q)) + B (ix1 q)
  simp only [ha, hx, hwl, hwr]

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

/-- The bias reaches the region reshaped from 256 entries to a 1 × 256 row. -/
theorem bias_row (c : Dev nD) : (V m c main_v23 : S1x256.Idx → EReal)
    = shapeCast S1x256 (m ((c : Thread nD τ).loc main_arg3)) shapeCasts_S256_S1x256 := by
  dsimp only [Gen.V, Gen.hostOps0]; after_results; rfl

/-- The row's entry at column `q` is the bias's entry `q`. -/
theorem bias_row_apply (c : Dev nD) (q : Fin 256) :
    (V m c main_v23 : S1x256.Idx → EReal) (ix2 (0 : Fin 1) q) = m ((c : Thread nD τ).loc main_arg3) (ix1 q) := by
  rw [bias_row]
  exact shapeCast_apply _ shapeCasts_S256_S1x256 (ix2 (0 : Fin 1) q) (ix1 q)
    (by rewrite [Shape.rowMajor_val_one, Shape.rowMajor_val_two]; show q.val = 0 * 256 + q.val; omega)

/-- The output array after the run: the layer of the aggregated features as the region finds them (`main_v22`, made
    by the host operations before the region) and of the argument arrays. -/
abbrev whole (c : Dev nD) : S50000x256.Idx → EReal :=
  Cert.Sage.layer (V m c main_v22) (m ((c : Thread nD τ).loc main_arg0)) (m ((c : Thread nD τ).loc main_arg2))
    (m ((c : Thread nD τ).loc main_arg4)) (m ((c : Thread nD τ).loc main_arg3))

/-! ## Where each window's block sits -/

/-- The printed index maps over the 25 grid points: the two feature windows and the output move down their arrays
    one tile of rows per point; the weights and the bias row stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is tile `t` of `whole`. -/
theorem flushed_eq (c : Dev nD) (t : Fin cfg0.N) :
    (dats m 0 c).flushed 5 t = ((cfg0.win 5).blk t).view.read (Elt Ideal) (whole m c) := by
  rw [flushed5]
  unfold out0_5
  rw [View.canon_unit_zero hz]
  simp only [View.ld_unit_zero (S := S2000x128) hz, View.ld_unit_zero (S := S128x256) hz, View.ld_unit_zero (S := S1x256) hz]
  obtain ⟨e00, e01, e10, e11, e20, e21, e30, e31, e40, e41, e50, e51⟩ := idx_facts t
  have ht : t.val < 25 := lt_of_lt_of_eq t.isLt N_0
  funext j
  show k0_pay1 (F := Ideal) (iblk m c 0 t) (iblk m c 1 t) (iblk m c 2 t) (iblk m c 4 t) (iblk m c 3 t) j
    = whole m c (((cfg0.win 5).blk t).view.emb j)
  have hj0 : (j 0).val < 2000 := (j 0).isLt
  have hj1 : (j 1).val < 256 := (j 1).isLt
  have hj : j = ix2 (⟨(j 0).val, hj0⟩ : Fin 2000) (⟨(j 1).val, hj1⟩ : Fin 256) :=
    funext fun a => match a with | ⟨0, _⟩ => rfl | ⟨1, _⟩ => rfl
  have hi : ((cfg0.win 5).blk t).view.emb j
      = ix2 (⟨t.val * 2000 + (j 0).val, by omega⟩ : Fin 50000) (⟨(j 1).val, hj1⟩ : Fin 256) := by
    funext a; apply Fin.ext
    match a with
    | ⟨0, _⟩ => show win0_5.index t (0 : Fin 2) * 2000 + 1 * (j 0).val = t.val * 2000 + (j 0).val; omega
    | ⟨1, _⟩ => show win0_5.index t (1 : Fin 2) * 256 + 1 * (j 1).val = (j 1).val; omega
  rw [hi]
  refine (congrArg (k0_pay1 (F := Ideal) (iblk m c 0 t) (iblk m c 1 t) (iblk m c 2 t) (iblk m c 4 t) (iblk m c 3 t)) hj).trans ?_
  refine tile_layer (iblk m c 0 t) (iblk m c 1 t) (iblk m c 2 t) (iblk m c 4 t) (iblk m c 3 t)
    (V m c main_v22) (m ((c : Thread nD τ).loc main_arg0)) (m ((c : Thread nD τ).loc main_arg2))
    (m ((c : Thread nD τ).loc main_arg4)) (m ((c : Thread nD τ).loc main_arg3))
    ⟨(j 0).val, hj0⟩ ⟨(j 1).val, hj1⟩ ⟨t.val * 2000 + (j 0).val, by omega⟩ ?_ ?_ ?_ ?_ ?_
  · intro k
    show V m c main_v22 (((cfg0.win 0).blk t).view.emb (ix2 (⟨(j 0).val, hj0⟩ : Fin 2000) k)) = _
    refine congrArg (V m c main_v22) (funext fun a => Fin.ext ?_)
    match a with
    | ⟨0, _⟩ => show win0_0.index t (0 : Fin 2) * 2000 + 1 * (j 0).val = t.val * 2000 + (j 0).val; omega
    | ⟨1, _⟩ => show win0_0.index t (1 : Fin 2) * 128 + 1 * k.val = k.val; omega
  · intro k
    rw [← V_main_arg0 m c]
    show V m c main_arg0 (((cfg0.win 1).blk t).view.emb (ix2 (⟨(j 0).val, hj0⟩ : Fin 2000) k)) = _
    refine congrArg (V m c main_arg0) (funext fun a => Fin.ext ?_)
    match a with
    | ⟨0, _⟩ => show win0_1.index t (0 : Fin 2) * 2000 + 1 * (j 0).val = t.val * 2000 + (j 0).val; omega
    | ⟨1, _⟩ => show win0_1.index t (1 : Fin 2) * 128 + 1 * k.val = k.val; omega
  · intro k
    rw [← V_main_arg2 m c]
    show V m c main_arg2 (((cfg0.win 2).blk t).view.emb (ix2 k (⟨(j 1).val, hj1⟩ : Fin 256))) = _
    refine congrArg (V m c main_arg2) (funext fun a => Fin.ext ?_)
    match a with
    | ⟨0, _⟩ => show win0_2.index t (0 : Fin 2) * 128 + 1 * k.val = k.val; omega
    | ⟨1, _⟩ => show win0_2.index t (1 : Fin 2) * 256 + 1 * (j 1).val = (j 1).val; omega
  · intro k
    rw [← V_main_arg4 m c]
    show V m c main_arg4 (((cfg0.win 4).blk t).view.emb (ix2 k (⟨(j 1).val, hj1⟩ : Fin 256))) = _
    refine congrArg (V m c main_arg4) (funext fun a => Fin.ext ?_)
    match a with
    | ⟨0, _⟩ => show win0_4.index t (0 : Fin 2) * 128 + 1 * k.val = k.val; omega
    | ⟨1, _⟩ => show win0_4.index t (1 : Fin 2) * 256 + 1 * (j 1).val = (j 1).val; omega
  · rw [← bias_row_apply m c]
    show V m c main_v23 (((cfg0.win 3).blk t).view.emb (ix2 (0 : Fin 1) (⟨(j 1).val, hj1⟩ : Fin 256))) = _
    refine congrArg (V m c main_v23) (funext fun a => Fin.ext ?_)
    match a with
    | ⟨0, _⟩ => show win0_3.index t (0 : Fin 2) * 1 + 1 * 0 = 0; omega
    | ⟨1, _⟩ => show win0_3.index t (1 : Fin 2) * 256 + 1 * (j 1).val = (j 1).val; omega

/-! ## The tiles cover the array -/

/-- An index of the output array is in point `t`'s tile iff each coordinate is in the tile's range on its axis. -/
theorem mem_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v24).slice (win0_5.rect t)).set ↔ _
  rw [View.set_slice_whole, Rect.mem_set_unit]
  exact Iff.rfl

/-- Row `r` of the output lies in the tile of point `r / 2000`: the 25 tiles of 2000 rows fill the 50000 rows. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨_, _, _, _, _, _, _, _, _, _, e50, e51⟩ := idx_facts t
  have e50' : win0_5.index t (0 : Fin 2) = (i 0).val / 2000 := e50
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-- THE ARRAY after the run is `whole`. -/
theorem final (c : Dev nD) : (dats m 0 c).arrAt 5 cfg0.N = whole m c :=
  (dats m 0 c).arrAt_eq_of_cover 5 (whole m c) (fun t _ => flushed_eq m c t) cover

/-- The kernel's run, with the output array named. -/
theorem run : θ_run defs (onTc (τ := τ) (main (F := Ideal))) ⟨m, fun _ => 0, ρ⟩ fun r => ∀ c : Dev nD,
      r.2.mem ((c : Thread nD τ).loc main_v24) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Arr

end
-- ==== Proof.RefLayer.lean ====
/-
  The reference's result is the layer of its own aggregated features.

  After aggregating the neighbours' features into a 50000 × 128 matrix (the stage `val_main_v22`: a gather of the
  source rows, two scatter-adds and a division by the clamped neighbour count, none of which is opened here), the
  reference multiplies it by `W_l`, adds the bias broadcast over the rows, and adds the nodes' own features times
  `W_r`. Each matrix product at an entry is the sum over the 128 input channels, the broadcast bias at `(r, c)` is the
  bias's entry `c`, and the bias added between the products is the bias added after them.
-/
import proofs.«174764_j63367947485322_1_alg».proof.Proof.Gen.ReferenceIdeal.Read
import proofs.«174764_j63367947485322_1_alg».proof.Proof.Layer

noncomputable section

namespace Cert.ReferenceIdeal.RefLayer

open Cert.ReferenceIdeal Cert.ReferenceIdeal.Gen Cert.ReferenceIdeal.Read Idealize.ShloMosaic Idealize.ShloMosaic.ValueIdx

/-- The reference's last stage, as a function of its five arguments, is the layer of its aggregated features. -/
theorem result_eq (x0 : (⟨S50000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) :
    val_main_v28 (F := Ideal) x0 x1 x2 x3 x4 = Cert.Sage.layer (val_main_v22 (F := Ideal) x0 x1) x0 x2 x4 x3 := by
  funext i
  have hl23 : ∀ k : Fin 128, lidx_main_v23 i k = ix2 (i 0) k :=
    fun k => funext fun a => match a with | ⟨0, _⟩ => rfl | ⟨1, _⟩ => rfl
  have hr23 : ∀ k : Fin 128, ridx_main_v23 i k = ix2 k (i 1) :=
    fun k => funext fun a => match a with | ⟨0, _⟩ => rfl | ⟨1, _⟩ => rfl
  have hl27 : ∀ k : Fin 128, lidx_main_v27 i k = ix2 (i 0) k :=
    fun k => funext fun a => match a with | ⟨0, _⟩ => rfl | ⟨1, _⟩ => rfl
  have hr27 : ∀ k : Fin 128, ridx_main_v27 i k = ix2 k (i 1) :=
    fun k => funext fun a => match a with | ⟨0, _⟩ => rfl | ⟨1, _⟩ => rfl
  have hb : idx_main_v24 (idx_main_v25 i) = ix1 (i 1) :=
    funext fun a => match a with | ⟨0, _⟩ => rfl
  rw [val_main_v28_apply, val_main_v26_apply, val_main_v23_apply, val_main_v27_apply, val_main_v25_apply, val_main_v24_apply]
  simp only [hl23, hr23, hl27, hr27, hb, Ideal.addf_def]
  exact Cert.Sage.layer_bias_between (val_main_v22 (F := Ideal) x0 x1) x0 x2 x4 x3 i

end Cert.ReferenceIdeal.RefLayer

end
-- ==== Proof.Assemble.lean ====
/-
  The two programs compute one graph-convolution layer, and the claims.

  Both programs begin with the same host operations: they split the edge list into sources and targets, gather the
  sources' feature rows, scatter-add them onto the targets, count each target's edges by a second scatter-add, and divide
  by the count clamped below by one. Operation for operation and literal for literal the two prefixes are the same term of
  the node features and the edge list, so the aggregated features the kernel's region finds are the reference's stage
  (`agg_eq`; nothing of the gather or the scatters is opened, and an edge index outside the node range reads the same on
  both sides).

  From there the kernel, tile by tile of 2000 nodes, and the reference, on the whole arrays, both compute
  `a · W_l + x · W_r + b`; they differ only in where the bias is added, and addition of extended reals is commutative
  and associative. The precondition is not used.
-/
import proofs.«174764_j63367947485322_1_alg».proof.Defs
import proofs.«174764_j63367947485322_1_alg».proof.Proof.Gen.Kernel.Frame
import proofs.«174764_j63367947485322_1_alg».proof.Proof.Gen.KernelIdeal.Value
import proofs.«174764_j63367947485322_1_alg».proof.Proof.Gen.ReferenceIdeal.Run
import proofs.«174764_j63367947485322_1_alg».proof.Proof.Gen.ReferenceIdeal.Read
import proofs.«174764_j63367947485322_1_alg».proof.Proof.Gen.Pre_finite_inputs
import proofs.«174764_j63367947485322_1_alg».proof.Proof.KernelArray
import proofs.«174764_j63367947485322_1_alg».proof.Proof.RefLayer
import Idealize.ShloMosaic.Lib.StableHlo.Run

noncomputable section

open Idealize.ShloMosaic Idealize.ShloMosaic.TcCoe Idealize.SL.Sem

namespace Cert.Proof.Sage

set_option maxHeartbeats 2000000 in
open Cert.ReferenceIdeal.Read in
/-- The aggregated neighbour features as the kernel's region finds them are the reference's stage of the same name, of
    the kernel's node features and edge list: the two host prefixes are one term. -/
theorem agg_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v22 : Cert.Sage.Feat.Idx → EReal)
      = Cert.ReferenceIdeal.Read.val_main_v22 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]; after_results_simp
  unfold val_main_v22 val_main_v21 val_main_v20 val_main_v19 val_main_v18 val_main_cst_3 val_main_v17 val_main_v16 val_main_v15
    val_main_cst_2 val_main_v14 val_main_cst_1 val_main_v13 val_main_v12 val_main_v11 val_main_cst val_main_v10 val_main_v9
    val_main_v8 val_main_v7 val_main_v6 val_main_c_0 val_main_v5 val_main_v4 val_main_c val_main_v3 val_main_v2 val_main_v1
    val_main_v0
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the layer of the aggregated features, the node features, the weights and the bias. -/
theorem algebraic : Cert.algebraic_KernelIdeal_ReferenceIdeal := by
  intro m ρ m' ρ' _ hagree
  refine ⟨fun c => Cert.KernelIdeal.Arr.whole m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefLayer.result_eq,
    (hagree c).1, (hagree c).2.1, (hagree c).2.2.1, (hagree c).2.2.2.1, (hagree c).2.2.2.2]
  show _ = Cert.Sage.layer (Cert.KernelIdeal.Gen.V m c Cert.KernelIdeal.main_v22) _ _ _ _
  rw [agg_eq m c]

end Cert.Proof.Sage

end
-- ==== Proof.lean ====
/-
  A mean-aggregating graph-convolution layer: for every node, the mean of its in-neighbours' feature rows (a gather
  along the edges' sources, a scatter-add onto their targets, divided by the in-degree clamped below by one) times
  `W_l`, plus the bias, plus the node's own features times `W_r`.

  The kernel leaves the aggregation to the same host operations the reference uses and fuses the rest: tile by tile of
  2000 nodes it multiplies both 2000 × 128 tiles by their 128 × 256 weights (narrowed to bf16, which is the identity on
  the extended reals), adds the two products and then the bias row. The reference adds the bias between the two
  products. On the extended reals both are

      out(r, c) = (∑ₖ a(r,k) · W_l(k,c) + ∑ₖ x(r,k) · W_r(k,c)) + b(c)

  with `a` the aggregated features, one term of the node features and the edge list on both sides; addition is
  commutative and associative there, infinities included, so the finiteness of the inputs is never used.

  Modules: Layer (the function and the law), TileValue (the body's value on one tile), KernelArray (tiles to the whole
  array, and the kernel's run), RefLayer (the reference's last stage is the layer), Assemble (the shared aggregation and
  the claims); LibPlainDot reads a plain matrix product at an entry.
-/
import proofs.«174764_j63367947485322_1_alg».proof.Defs
import proofs.«174764_j63367947485322_1_alg».proof.Proof.Gen.Kernel
import proofs.«174764_j63367947485322_1_alg».proof.Proof.Gen.KernelIdeal
import proofs.«174764_j63367947485322_1_alg».proof.Proof.Gen.ReferenceIdeal
import proofs.«174764_j63367947485322_1_alg».proof.Proof.Gen.Pre_finite_inputs
import proofs.«174764_j63367947485322_1_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Sage.frame_k, Cert.Proof.Sage.frame_ki, Cert.Proof.Sage.frame_ri, trivial, Cert.Proof.Sage.algebraic⟩

end Cert.Proof

end
